-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x512 .f32 .bf16
  ∧ IdealRules.truncf_extf.Statement Cert.KernelIdeal.S1000x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768 : Shape := ⟨1, ![32768]⟩
abbrev S1000x1024 : Shape := ⟨2, ![1000, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_

variable [Facts]

def fn {F : FTy → Type} [FloatOps F] (main_arg0 : FVec F S32768x1024 .f32) (main_arg1 : IVec S32768 32) (main_arg2 : FVec F S1000x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1000x1024 .f32 := Host.absf main_arg2
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  main_v8
-- ==== Kernel.lean ====
abbrev S32768x1024 : Shape := ⟨2, ![32768, 1024]⟩
abbrev S32768 : Shape := ⟨1, ![32768]⟩
abbrev S1000x1024 : Shape := ⟨2, ![1000, 1024]⟩
abbrev S1x32768 : Shape := ⟨2, ![1, 32768]⟩
abbrev S2048x512 : Shape := ⟨2, ![2048, 512]⟩
abbrev S1x2048 : Shape := ⟨2, ![1, 2048]⟩
abbrev S1000x512 : Shape := ⟨2, ![1000, 512]⟩
abbrev S1000x1 : Shape := ⟨2, ![1000, 1]⟩
abbrev S1000x2048 : Shape := ⟨2, ![1000, 2048]⟩
abbrev S1000 : Shape := ⟨1, ![1000]⟩

abbrev nBuf : Space → Nat
  | .hbm => 5
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1000x1024, .f32⟩
  | .hbm, ⟨3, _⟩ => ⟨S1x32768, .i32⟩
  | .hbm, ⟨4, _⟩ => ⟨S1000x1024, .f32⟩
  | .local _ .vmem, ⟨0, _⟩ => ⟨S2048x512, .f32⟩
  | .local _ .vmem, ⟨1, _⟩ => ⟨S2048x512, .f32⟩
  | .local _ .vmem, ⟨2, _⟩ => ⟨S1x2048, .i32⟩
  | .local _ .vmem, ⟨3, _⟩ => ⟨S1x2048, .i32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32768_S1x32768 : S32768.ShapeCasts S1x32768
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1000x2048_d0_w32 : S1000x2048.Iotas .tc 32 [0]
  broadcasts_S1x2048_S1000x2048 : S1x2048.Broadcasts S1000x2048
  natLt_1_32 : 1 < 32
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  reduces_S1000x2048_S1000 : S1000x2048.Reduces [1] S1000
  shapeCasts_S1000_S1000x1 : S1000.ShapeCasts S1000x1
  broadcasts_S1000x1_S1000x512 : S1000x1.Broadcasts S1000x512
  dot_S1000x2048_S2048x512_S1000x512_1_0_0_1_n_n_wf : DotDims.WF S1000x2048 S2048x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x1024.size a
  hwx0_0 : ∀ i : grid0.Coords, EltTy.bits .f32 = 32 ∨ (Rect.block (s := S32768x1024) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x32768.size a
  hwx0_1 : ∀ i : grid0.Coords, EltTy.bits .i32 = 32 ∨ (Rect.block (s := S1x32768) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S1000x1024.size a
  hwx0_2 : ∀ i : grid0.Coords, EltTy.bits .f32 = 32 ∨ (Rect.block (s := S1000x1024) S1000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S1000x1024.size a
  hwx0_3 : ∀ i : grid0.Coords, EltTy.bits .f32 = 32 ∨ (Rect.block (s := S1000x1024) S1000x512.size (cc0_transform_3 i) (hinb0_3 i)).WholeWords (EltTy.packing .f32)

variable [Facts₀]

def dot_S1000x2048_S2048x512_S1000x512_1_0_0_1_n_n : DotDims S1000x2048 S2048x512 S1000x512 where
  lhsContracting := [1]
  rhsContracting := [0]
  lhsNonContracting := [0]
  rhsNonContracting := [1]
  lhsBatch := []
  rhsBatch := []
  wf := dot_S1000x2048_S2048x512_S1000x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S32768 : Shape := ⟨1, ![32768]⟩
abbrev S1000x1024 : Shape := ⟨2, ![1000, 1024]⟩
abbrev S_ : Shape := ⟨0, ![]⟩
abbrev S32768x1 : Shape := ⟨2, ![32768, 1]⟩
abbrev S1000 : Shape := ⟨1, ![1000]⟩
abbrev S1000x1 : Shape := ⟨2, ![1000, 1]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1000x1024, .f32⟩
  | .hbm, ⟨3, _⟩ => ⟨S_, .f32⟩
  | .hbm, ⟨4, _⟩ => ⟨S1000x1024, .f32⟩
  | .hbm, ⟨5, _⟩ => ⟨S32768x1, .i32⟩
  | .hbm, ⟨6, _⟩ => ⟨S1000x1024, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S1000, .f32⟩
  | .hbm, ⟨11, _⟩ => ⟨S32768x1, .i32⟩
  | .hbm, ⟨12, _⟩ => ⟨S1000, .f32⟩
  | .hbm, ⟨13, _⟩ => ⟨S1000x1, .f32⟩
  | .hbm, ⟨14, _⟩ => ⟨S1000x1024, .f32⟩
  | .hbm, ⟨15, _⟩ => ⟨S1000x1024, .f32⟩
  | .hbm, ⟨16, _⟩ => ⟨S_, .f32⟩
  | .hbm, ⟨17, _⟩ => ⟨S1000x1024, .f32⟩
  | .hbm, ⟨18, _⟩ => ⟨S1000x1024, .f32⟩
  | .hbm, ⟨19, _⟩ => ⟨S_, .f32⟩
  | .hbm, ⟨20, _⟩ => ⟨S1000x1024, .f32⟩
  | .hbm, ⟨21, _⟩ => ⟨S1000x1024, .f32⟩
  | .hbm, ⟨22, _⟩ => ⟨S1000x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S1000x1024 : S_.BroadcastsInDim S1000x1024 (![] : Fin 0 → Fin S1000x1024.rank)
  bcast_S32768_S32768x1_0 : S32768.BroadcastsInDim S32768x1 (![0] : Fin 1 → Fin S32768x1.rank)
  bcast_S_S32768 : S_.BroadcastsInDim S32768 (![] : Fin 0 → Fin S32768.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x1024_0_1 : S1000x1.BroadcastsInDim S1000x1024 (![0, 1] : Fin 2 → Fin S1000x1024.rank)
  scatter_S1000x1024_S32768x1_S32768x1024_1_0_0_1_wf : ScatterDims.WF S1000x1024 S32768x1 S32768x1024 [1] [0] [0] 1
  scatter_S1000_S32768x1_S32768_n_0_0_1_wf : ScatterDims.WF S1000 S32768x1 S32768 [] [0] [0] 1

variable [Facts₀]

def scatter_S1000x1024_S32768x1_S32768x1024_1_0_0_1 : ScatterDims S1000x1024 S32768x1 S32768x1024 where
  updateWindowDims := [1]
  insertedWindowDims := [0]
  scatterDimsToOperandDims := [0]
  indexVectorDim := 1
  wf := scatter_S1000x1024_S32768x1_S32768x1024_1_0_0_1_wf
def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf

class Facts : Prop extends Facts₀ where

variable [Facts]
-- ==== Proof.Pieces.lean ====
/-
  What the kernel body leaves behind at a grid point, read as values (at any float instance).

  The body keeps two accumulators across the sixteen batch tiles of a feature half: the running per-class sum
  (a [1000, 512] block) and the running per-class count (a [1000, 1] column). At a first tile both are reset to
  zero and the tile's share added; at a later tile the tile's share is added to what the tile before left; at
  the last tile, after that addition, the output block is the blended mean of the two accumulators and the
  centroid block. Each of these is the body's arithmetic (`k0_pay4`, `k0_pay5`, `k0_pay6` over the reset values
  `k0_pay1`, `k0_pay2`) applied to the blocks the point holds.
-/
import proofs.«412417_j59760174957097_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem
open Idealize.ShloMosaic.Pipeline (Dat)

variable {F : FTy → Type} [FloatOps F]

/-- The zero offsets of a whole-block access. -/
theorem hz : (![0, 0] : Fin 2 → Nat) = fun _ => 0 := funext fun a => by fin_cases a <;> rfl

/-- First tile: the sum accumulator ends at the tile's share added to the reset value. -/
theorem sumA (c : Dev nD) (i : grid0.Coords) (a2 : Memref sig .tc .vmem S2048x512 .f32) (h2 : a2.IsWhole) (a3 : Memref sig .tc .vmem S1x2048 .i32) (h3 : a3.IsWhole) (a4 : Memref sig .tc .vmem S1000x512 .f32) (h4 : a4.IsWhole) (a5 : Memref sig .tc .vmem S1000x512 .f32) (h5 : a5.IsWhole) (a6 : Memref sig .tc .vmem S1000x512 .f32) (h6 : a6.IsWhole) (a7 : Memref sig .tc .vmem S1000x1 .f32) (h7 : a7.IsWhole) (hc0 : cond0_0 i) (hc1 : ¬cond0_1 i) (x0 : Vec F S2048x512 .f32) (x1 : Vec F S1x2048 .i32) (x2 : Vec F S1000x512 .f32) :
    sout0_A_0 c i a2 h2 a3 h3 a4 h4 a5 h5 a6 h6 a7 h7 hc0 hc1 x0 x1 x2 = k0_pay4 x1 x0 (k0_pay1 (F := F)) := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S1000x512) hz, View.readCov_unit_zero (S := S1000x512) _ hz]
  simp only [View.readAt_eq_ld, h2.read_unread, h3.read_unread, View.ld_unit_zero (S := S2048x512) hz, View.ld_unit_zero (S := S1x2048) hz]

/-- First tile: the count accumulator ends at the tile's count added to the reset value. -/
theorem cntA (c : Dev nD) (i : grid0.Coords) (a2 : Memref sig .tc .vmem S2048x512 .f32) (h2 : a2.IsWhole) (a3 : Memref sig .tc .vmem S1x2048 .i32) (h3 : a3.IsWhole) (a4 : Memref sig .tc .vmem S1000x512 .f32) (h4 : a4.IsWhole) (a5 : Memref sig .tc .vmem S1000x512 .f32) (h5 : a5.IsWhole) (a6 : Memref sig .tc .vmem S1000x512 .f32) (h6 : a6.IsWhole) (a7 : Memref sig .tc .vmem S1000x1 .f32) (h7 : a7.IsWhole) (hc0 : cond0_0 i) (hc1 : ¬cond0_1 i) (x0 : Vec F S2048x512 .f32) (x1 : Vec F S1x2048 .i32) (x2 : Vec F S1000x512 .f32) :
    sout0_A_1 c i a2 h2 a3 h3 a4 h4 a5 h5 a6 h6 a7 h7 hc0 hc1 x0 x1 x2 = k0_pay5 x1 (k0_pay2 (F := F)) := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_cons_unit_zero (S := S1000x1) hz, View.readCov_unit_zero (S := S1000x1) _ hz]
  simp only [View.readAt_eq_ld, h3.read_unread, View.ld_unit_zero (S := S1x2048) hz]

/-- Middle tile: the sum accumulator ends at the tile's share added to what it held. -/
theorem sumB (c : Dev nD) (i : grid0.Coords) (a2 : Memref sig .tc .vmem S2048x512 .f32) (h2 : a2.IsWhole) (a3 : Memref sig .tc .vmem S1x2048 .i32) (h3 : a3.IsWhole) (a4 : Memref sig .tc .vmem S1000x512 .f32) (h4 : a4.IsWhole) (a5 : Memref sig .tc .vmem S1000x512 .f32) (h5 : a5.IsWhole) (a6 : Memref sig .tc .vmem S1000x512 .f32) (h6 : a6.IsWhole) (a7 : Memref sig .tc .vmem S1000x1 .f32) (h7 : a7.IsWhole) (hc0 : ¬cond0_0 i) (hc1 : ¬cond0_1 i) (x0 : Vec F S2048x512 .f32) (x1 : Vec F S1x2048 .i32) (x2 : Vec F S1000x512 .f32) (xs0 : Vec F S1000x512 .f32) (xs1 : Vec F S1000x1 .f32) :
    sout0_B_0 c i a2 h2 a3 h3 a4 h4 a5 h5 a6 h6 a7 h7 hc0 hc1 x0 x1 x2 xs0 xs1 = k0_pay4 x1 x0 xs0 := by
  unfold sout0_B_0
  rw [View.read_writes_eq_canon _ _ _ (scover0_B_0 c i a2 h2 a3 h3 a4 h4 a5 h5 a6 h6 a7 h7 hc0 hc1 x0 x1 x2 xs0 xs1)]
  unfold kernelRun0_B
  dsimp only
  sl_unfold_words
  rw [View.canon_unit_zero hz]
  simp only [View.readAt_eq_ld, h2.read_unread, h3.read_unread, h6.read_unread, View.ld_unit_zero (S := S2048x512) hz, View.ld_unit_zero (S := S1x2048) hz, View.ld_unit_zero (S := S1000x512) hz]

/-- Middle tile: the count accumulator ends at the tile's count added to what it held. -/
theorem cntB (c : Dev nD) (i : grid0.Coords) (a2 : Memref sig .tc .vmem S2048x512 .f32) (h2 : a2.IsWhole) (a3 : Memref sig .tc .vmem S1x2048 .i32) (h3 : a3.IsWhole) (a4 : Memref sig .tc .vmem S1000x512 .f32) (h4 : a4.IsWhole) (a5 : Memref sig .tc .vmem S1000x512 .f32) (h5 : a5.IsWhole) (a6 : Memref sig .tc .vmem S1000x512 .f32) (h6 : a6.IsWhole) (a7 : Memref sig .tc .vmem S1000x1 .f32) (h7 : a7.IsWhole) (hc0 : ¬cond0_0 i) (hc1 : ¬cond0_1 i) (x0 : Vec F S2048x512 .f32) (x1 : Vec F S1x2048 .i32) (x2 : Vec F S1000x512 .f32) (xs0 : Vec F S1000x512 .f32) (xs1 : Vec F S1000x1 .f32) :
    sout0_B_1 c i a2 h2 a3 h3 a4 h4 a5 h5 a6 h6 a7 h7 hc0 hc1 x0 x1 x2 xs0 xs1 = k0_pay5 x1 xs1 := by
  unfold sout0_B_1
  rw [View.read_writes_eq_canon _ _ _ (scover0_B_1 c i a2 h2 a3 h3 a4 h4 a5 h5 a6 h6 a7 h7 hc0 hc1 x0 x1 x2 xs0 xs1)]
  unfold kernelRun0_B
  dsimp only
  sl_unfold_words
  rw [View.canon_unit_zero hz]
  simp only [View.readAt_eq_ld, h3.read_unread, h7.read_unread, View.ld_unit_zero (S := S1x2048) hz, View.ld_unit_zero (S := S1000x1) hz]

/-- Last tile: the sum accumulator, as at a middle tile. -/
theorem sumC (c : Dev nD) (i : grid0.Coords) (a2 : Memref sig .tc .vmem S2048x512 .f32) (h2 : a2.IsWhole) (a3 : Memref sig .tc .vmem S1x2048 .i32) (h3 : a3.IsWhole) (a4 : Memref sig .tc .vmem S1000x512 .f32) (h4 : a4.IsWhole) (a5 : Memref sig .tc .vmem S1000x512 .f32) (h5 : a5.IsWhole) (a6 : Memref sig .tc .vmem S1000x512 .f32) (h6 : a6.IsWhole) (a7 : Memref sig .tc .vmem S1000x1 .f32) (h7 : a7.IsWhole) (hc0 : ¬cond0_0 i) (hc1 : cond0_1 i) (x0 : Vec F S2048x512 .f32) (x1 : Vec F S1x2048 .i32) (x2 : Vec F S1000x512 .f32) (xs0 : Vec F S1000x512 .f32) (xs1 : Vec F S1000x1 .f32) :
    sout0_C_0 c i a2 h2 a3 h3 a4 h4 a5 h5 a6 h6 a7 h7 hc0 hc1 x0 x1 x2 xs0 xs1 = k0_pay4 x1 x0 xs0 := by
  unfold sout0_C_0
  rw [View.read_writes_eq_canon _ _ _ (scover0_C_0 c i a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h2.read_unread, h3.read_unread, h6.read_unread, View.ld_unit_zero (S := S2048x512) hz, View.ld_unit_zero (S := S1x2048) hz, View.ld_unit_zero (S := S1000x512) hz]

/-- Last tile: the count accumulator, as at a middle tile. -/
theorem cntC (c : Dev nD) (i : grid0.Coords) (a2 : Memref sig .tc .vmem S2048x512 .f32) (h2 : a2.IsWhole) (a3 : Memref sig .tc .vmem S1x2048 .i32) (h3 : a3.IsWhole) (a4 : Memref sig .tc .vmem S1000x512 .f32) (h4 : a4.IsWhole) (a5 : Memref sig .tc .vmem S1000x512 .f32) (h5 : a5.IsWhole) (a6 : Memref sig .tc .vmem S1000x512 .f32) (h6 : a6.IsWhole) (a7 : Memref sig .tc .vmem S1000x1 .f32) (h7 : a7.IsWhole) (hc0 : ¬cond0_0 i) (hc1 : cond0_1 i) (x0 : Vec F S2048x512 .f32) (x1 : Vec F S1x2048 .i32) (x2 : Vec F S1000x512 .f32) (xs0 : Vec F S1000x512 .f32) (xs1 : Vec F S1000x1 .f32) :
    sout0_C_1 c i a2 h2 a3 h3 a4 h4 a5 h5 a6 h6 a7 h7 hc0 hc1 x0 x1 x2 xs0 xs1 = k0_pay5 x1 xs1 := by
  unfold sout0_C_1
  rw [View.read_writes_eq_canon _ _ _ (scover0_C_1 c i a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h3.read_unread, h7.read_unread, View.ld_unit_zero (S := S1x2048) hz, View.ld_unit_zero (S := S1000x1) hz]

/-- Last tile: the output block is the blend of the two accumulators AFTER this tile's additions and the centroid block. -/
theorem outC (c : Dev nD) (i : grid0.Coords) (a2 : Memref sig .tc .vmem S2048x512 .f32) (h2 : a2.IsWhole) (a3 : Memref sig .tc .vmem S1x2048 .i32) (h3 : a3.IsWhole) (a4 : Memref sig .tc .vmem S1000x512 .f32) (h4 : a4.IsWhole) (a5 : Memref sig .tc .vmem S1000x512 .f32) (h5 : a5.IsWhole) (a6 : Memref sig .tc .vmem S1000x512 .f32) (h6 : a6.IsWhole) (a7 : Memref sig .tc .vmem S1000x1 .f32) (h7 : a7.IsWhole) (hc0 : ¬cond0_0 i) (hc1 : cond0_1 i) (x0 : Vec F S2048x512 .f32) (x1 : Vec F S1x2048 .i32) (x2 : Vec F S1000x512 .f32) (xs0 : Vec F S1000x512 .f32) (xs1 : Vec F S1000x1 .f32) :
    out0_C_3 c i a2 h2 a3 h3 a4 h4 a5 h5 a6 h6 a7 h7 hc0 hc1 x0 x1 x2 xs0 xs1 = k0_pay6 (k0_pay4 x1 x0 xs0) (k0_pay5 x1 xs1) x2 := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, View.readCov_unit_zero (S := S1000x512) _ hz, View.readCov_unit_zero (S := S1000x1) _ hz,
    h2.read_unread, h3.read_unread, h4.read_unread, h6.read_unread, h7.read_unread,
    View.ld_unit_zero (S := S2048x512) hz, View.ld_unit_zero (S := S1x2048) hz, View.ld_unit_zero (S := S1000x512) hz, View.ld_unit_zero (S := S1000x1) hz]

end Cert.KernelIdeal.Pieces

end
-- ==== Proof.Steps.lean ====
/-
  The two accumulators and the output block after each grid point, as the body's arithmetic applied to the
  point's blocks and to what the point before left: a first tile starts from the reset values, a later tile
  from the accumulators of the tile before, and a last tile also writes the blended output block.
-/
import proofs.«412417_j59760174957097_3_alg».proof.Proof.Gen.KernelIdeal.Frame
import Idealize.ShloMosaic.Lib.Pipeline.Value
import Idealize.ShloMosaic.Lib.Tactic
import proofs.«412417_j59760174957097_3_alg».proof.Proof.Pieces

noncomputable section

namespace Cert.KernelIdeal.Steps

open Cert.KernelIdeal Cert.KernelIdeal.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

/-- The blocks a point holds, at their literal types. -/
abbrev xblk (c : Dev nD) (t : Fin cfg0.N) : Vec F S2048x512 .f32 := iblk m c 0 t
abbrev yblk (c : Dev nD) (t : Fin cfg0.N) : Vec F S1x2048 .i32 := iblk m c 1 t
abbrev cblk (c : Dev nD) (t : Fin cfg0.N) : Vec F S1000x512 .f32 := iblk m c 2 t

/-- What the two accumulators held when point `t` began (what the point before left). -/
abbrev sumBefore (c : Dev nD) (t : Fin cfg0.N) : Vec F S1000x512 .f32 :=
  (outsAt0 m c (t.val - 1) (Nat.lt_of_le_of_lt (Nat.sub_le _ _) t.isLt)).2.1
abbrev cntBefore (c : Dev nD) (t : Fin cfg0.N) : Vec F S1000x1 .f32 :=
  (outsAt0 m c (t.val - 1) (Nat.lt_of_le_of_lt (Nat.sub_le _ _) t.isLt)).2.2

/-- After a first tile the sum accumulator is the tile's share over the reset value. -/
theorem sumAt_first (c : Dev nD) (t : Fin cfg0.N) (h0 : t.val % 16 = 0) (h1 : ¬t.val % 16 = 15) :
    (outsAt0 m c t.val t.isLt).2.1 = k0_pay4 (yblk m c t) (xblk m c t) (k0_pay1 (F := F)) := by
  rw [outsAt0_A m c t h0 h1]; dsimp only
  exact Pieces.sumA (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- After a first tile the count accumulator is the tile's count over the reset value. -/
theorem cntAt_first (c : Dev nD) (t : Fin cfg0.N) (h0 : t.val % 16 = 0) (h1 : ¬t.val % 16 = 15) :
    (outsAt0 m c t.val t.isLt).2.2 = k0_pay5 (yblk m c t) (k0_pay2 (F := F)) := by
  rw [outsAt0_A m c t h0 h1]; dsimp only
  exact Pieces.cntA (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- After a middle tile the sum accumulator is the tile's share over what the tile before left. -/
theorem sumAt_middle (c : Dev nD) (t : Fin cfg0.N) (h0 : ¬t.val % 16 = 0) (h1 : ¬t.val % 16 = 15) :
    (outsAt0 m c t.val t.isLt).2.1 = k0_pay4 (yblk m c t) (xblk m c t) (sumBefore m c t) := by
  rw [outsAt0_B m c t h0 h1]; dsimp only
  exact Pieces.sumB (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem cntAt_middle (c : Dev nD) (t : Fin cfg0.N) (h0 : ¬t.val % 16 = 0) (h1 : ¬t.val % 16 = 15) :
    (outsAt0 m c t.val t.isLt).2.2 = k0_pay5 (yblk m c t) (cntBefore m c t) := by
  rw [outsAt0_B m c t h0 h1]; dsimp only
  exact Pieces.cntB (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- After a last tile the accumulators are as after a middle one, -/
theorem sumAt_last (c : Dev nD) (t : Fin cfg0.N) (h0 : ¬t.val % 16 = 0) (h1 : t.val % 16 = 15) :
    (outsAt0 m c t.val t.isLt).2.1 = k0_pay4 (yblk m c t) (xblk m c t) (sumBefore m c t) := by
  rw [outsAt0_C m c t h0 h1]; dsimp only
  exact Pieces.sumC (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem cntAt_last (c : Dev nD) (t : Fin cfg0.N) (h0 : ¬t.val % 16 = 0) (h1 : t.val % 16 = 15) :
    (outsAt0 m c t.val t.isLt).2.2 = k0_pay5 (yblk m c t) (cntBefore m c t) := by
  rw [outsAt0_C m c t h0 h1]; dsimp only
  exact Pieces.cntC (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- and the output block is the blend of those two and the centroid block. -/
theorem outAt_last (c : Dev nD) (t : Fin cfg0.N) (h0 : ¬t.val % 16 = 0) (h1 : t.val % 16 = 15) :
    (outsAt0 m c t.val t.isLt).1
      = k0_pay6 (k0_pay4 (yblk m c t) (xblk m c t) (sumBefore m c t)) (k0_pay5 (yblk m c t) (cntBefore m c t)) (cblk m c t) := by
  rw [outsAt0_C m c t h0 h1]; dsimp only
  exact Pieces.outC (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.Blocks.lean ====
/-
  Which entries of the argument arrays each block holds at a grid point.

  The grid is two feature halves by sixteen batch tiles; point `t` is half `t / 16`, tile `t % 16`. At it the
  embeddings' block is rows `2048 (t % 16) …` by features `512 (t / 16) …`, the labels' block the labels of the
  same rows (the labels reach the kernel laid out as one row of 32768), the centroids' block all classes by the
  same features.
-/
import proofs.«412417_j59760174957097_3_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run

noncomputable section

namespace Cert.KernelIdeal.Blocks

open Cert.KernelIdeal Cert.KernelIdeal.Gen
open Idealize.ShloMosaic Idealize.ShloMosaic.TcCoe Idealize.SL.Sem
open Idealize.ShloMosaic.Pipeline (Dat)

variable {F : FTy → Type} [FloatOps F]

open Idealize.ShloMosaic.ValueIdx

variable (m : (ℓ : Loc nD τ sig) → Buf (Elt F) ℓ)

/-- Where each window's block sits at grid point `t`: the feature half is `t / 16`, the batch tile `t % 16`. -/
theorem idxEmbed : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)
theorem idxLabel : ∀ t : Fin cfg0.N, win0_1.index t 0 = 0 ∧ win0_1.index t 1 = t.val % 16 :=
  (by decide +kernel : ∀ t : Fin grid0.N, win0_1.index t 0 = 0 ∧ win0_1.index t 1 = t.val % 16)
theorem idxCentroid : ∀ t : Fin cfg0.N, win0_2.index t 0 = 0 ∧ win0_2.index t 1 = t.val / 16 :=
  (by decide +kernel : ∀ t : Fin grid0.N, win0_2.index t 0 = 0 ∧ win0_2.index t 1 = t.val / 16)
theorem idxOut : ∀ t : Fin cfg0.N, win0_3.index t 0 = 0 ∧ win0_3.index t 1 = t.val / 16 :=
  (by decide +kernel : ∀ t : Fin grid0.N, win0_3.index t 0 = 0 ∧ win0_3.index t 1 = t.val / 16)

/-- The embeddings' block at point `t` holds rows `2048 (t % 16) + k`, features `512 (t / 16) + e`. -/
theorem embedBlock (c : Dev nD) (t : Fin cfg0.N) (k : Fin 2048) (e : Fin 512)
    (hk : 2048 * (t.val % 16) + k.val < 32768) (he : 512 * (t.val / 16) + e.val < 1024) :
    (iblk m c 0 t : Vec F S2048x512 .f32) (ix2 k e)
      = (m ((c : Thread nD τ).loc main_arg0) : Vec F S32768x1024 .f32) (ix2 ⟨2048 * (t.val % 16) + k.val, hk⟩ ⟨512 * (t.val / 16) + e.val, he⟩) := by
  unfold iblk
  rw [View.read_apply]
  show V m c main_arg0 _ = _
  rw [V_main_arg0]
  congr 1
  funext a
  apply Fin.ext
  match a with
  | ⟨0, _⟩ => show win0_0.index t 0 * 2048 + 1 * k.val = 2048 * (t.val % 16) + k.val; rw [(idxEmbed t).1]; omega
  | ⟨1, _⟩ => show win0_0.index t 1 * 512 + 1 * e.val = 512 * (t.val / 16) + e.val; rw [(idxEmbed t).2]; omega

/-- The centroids' block at point `t` holds all classes, features `512 (t / 16) + e`. -/
theorem centroidBlock (c : Dev nD) (t : Fin cfg0.N) (r : Fin 1000) (e : Fin 512)
    (he : 512 * (t.val / 16) + e.val < 1024) :
    (iblk m c 2 t : Vec F S1000x512 .f32) (ix2 r e)
      = (m ((c : Thread nD τ).loc main_arg2) : Vec F S1000x1024 .f32) (ix2 r ⟨512 * (t.val / 16) + e.val, he⟩) := by
  unfold iblk
  rw [View.read_apply]
  show V m c main_arg2 _ = _
  rw [V_main_arg2]
  congr 1
  funext a
  apply Fin.ext
  match a with
  | ⟨0, _⟩ => show win0_2.index t 0 * 1000 + 1 * r.val = r.val; rw [(idxCentroid t).1]; omega
  | ⟨1, _⟩ => show win0_2.index t 1 * 512 + 1 * e.val = 512 * (t.val / 16) + e.val; rw [(idxCentroid t).2]; omega

/-- The labels as the region finds them: the argument laid out as one row. -/
theorem labelsRow (c : Dev nD) :
    (V m c main_v0 : S1x32768.Idx → Elt F .i32) = shapeCast S1x32768 (m ((c : Thread nD τ).loc main_arg1)) shapeCasts_S32768_S1x32768 := by
  dsimp only [V, hostOps0]; after_results; rfl

/-- The labels' block at point `t` holds the labels of rows `2048 (t % 16) + k`. -/
theorem labelBlock (c : Dev nD) (t : Fin cfg0.N) (k : Fin 2048) (hk : 2048 * (t.val % 16) + k.val < 32768) :
    (iblk m c 1 t : Vec F S1x2048 .i32) (ix2 (0 : Fin 1) k)
      = (m ((c : Thread nD τ).loc main_arg1) : Vec F S32768 .i32) (ix1 ⟨2048 * (t.val % 16) + k.val, hk⟩) := by
  unfold iblk
  rw [View.read_apply]
  show V m c main_v0 _ = _
  rw [labelsRow]
  refine shapeCast_apply _ _ _ _ ?_
  refine (Shape.rowMajor_val_one (d := ![32768]) _).trans (Eq.trans ?_ (Shape.rowMajor_val_two (d := ![1, 32768]) _).symm)
  show 2048 * (t.val % 16) + k.val = (win0_1.index t 0 * 1 + 1 * 0) * 32768 + (win0_1.index t 1 * 2048 + 1 * k.val)
  rw [(idxLabel t).1, (idxLabel t).2]; omega

end Cert.KernelIdeal.Blocks

end
-- ==== Proof.Spec.lean ====
/-
  The blended class means as ONE function of the argument arrays, index by index, over the extended reals.

  For a class `c` and a feature `j`: the sum over the batch of the rows whose label is `c` (`classSum`),
  divided by the number of such rows (`classCount`), blended with the old centroid by the two weights both
  programs carry as the same two words. A label outside `0 … 999` is the label of no class: its row enters
  no sum and no count.

  The batch is also read tile by tile, 2048 rows at a time (`tileSum`, `tileCount`), and the tiles
  accumulated (`accSum`, `accCount`): sixteen tiles make the batch.
-/
import Idealize.ShloMosaic.PureOps.Ideal
import Idealize.ShloMosaic.PureOps.Ideal.Laws
import Idealize.ShloMosaic.Lib.ValueIdx

noncomputable section

namespace Cert.ClassMean

open Idealize.ShloMosaic Idealize.ShloMosaic.ValueIdx

/-- The shapes of the three arguments: the embeddings, the labels, the centroids. -/
abbrev SX : Shape := ⟨2, ![32768, 1024]⟩
abbrev SY : Shape := ⟨1, ![32768]⟩
abbrev SC : Shape := ⟨2, ![1000, 1024]⟩

/-- The indicator of "label `y` is class `c`": `1` or `0`. -/
def ind (y : BitVec 32) (c : ℕ) : EReal := if y = BitVec.ofNat 32 c then 1 else 0

/-- The two blending weights, as the words both programs carry. -/
abbrev wNew : EReal := Ideal.ofBits .f32 0x3E99999A#32
abbrev wOld : EReal := Ideal.ofBits .f32 0x3F333333#32

/-- The sum of feature `j` over the rows labelled `c`. -/
def classSum (X : SX.Idx → EReal) (Y : SY.Idx → BitVec 32) (c : Fin 1000) (j : Fin 1024) : EReal :=
  ∑ t : Fin 32768, ind (Y (ix1 t)) c.val * X (ix2 t j)

/-- The number of rows labelled `c`. -/
def classCount (Y : SY.Idx → BitVec 32) (c : Fin 1000) : EReal :=
  ∑ t : Fin 32768, ind (Y (ix1 t)) c.val

/-- The result: the class mean blended with the old centroid. -/
def blend (X : SX.Idx → EReal) (Y : SY.Idx → BitVec 32) (Cn : SC.Idx → EReal) : SC.Idx → EReal := fun i =>
  wNew * Ideal.div (classSum X Y (i 0) (i 1)) (classCount Y (i 0)) + wOld * Cn i

/-! ## The batch read at a natural-number row, and tile by tile -/

/-- Row `t`, feature `j` of the embeddings (`0` outside the array). -/
def xAt (X : SX.Idx → EReal) (t j : ℕ) : EReal :=
  if h : t < 32768 ∧ j < 1024 then X (ix2 ⟨t, h.1⟩ ⟨j, h.2⟩) else 0

/-- The label of row `t` (`0` outside the array). -/
def yAt (Y : SY.Idx → BitVec 32) (t : ℕ) : BitVec 32 :=
  if h : t < 32768 then Y (ix1 ⟨t, h⟩) else 0

/-- Tile `i`'s share of the sum: rows `2048 i … 2048 i + 2047`. -/
def tileSum (X : SX.Idx → EReal) (Y : SY.Idx → BitVec 32) (c j i : ℕ) : EReal :=
  ∑ k : Fin 2048, ind (yAt Y (2048 * i + k.val)) c * xAt X (2048 * i + k.val) j

/-- Tile `i`'s share of the count. -/
def tileCount (Y : SY.Idx → BitVec 32) (c i : ℕ) : EReal :=
  ∑ k : Fin 2048, ind (yAt Y (2048 * i + k.val)) c

/-- The first `n` tiles' sum. -/
def accSum (X : SX.Idx → EReal) (Y : SY.Idx → BitVec 32) (c j n : ℕ) : EReal :=
  ∑ i ∈ Finset.range n, tileSum X Y c j i

/-- The first `n` tiles' count. -/
def accCount (Y : SY.Idx → BitVec 32) (c n : ℕ) : EReal :=
  ∑ i ∈ Finset.range n, tileCount Y c i

theorem accSum_zero (X : SX.Idx → EReal) (Y : SY.Idx → BitVec 32) (c j : ℕ) : accSum X Y c j 0 = 0 := by
  simp [accSum]

theorem accSum_succ (X : SX.Idx → EReal) (Y : SY.Idx → BitVec 32) (c j n : ℕ) :
    accSum X Y c j (n + 1) = accSum X Y c j n + tileSum X Y c j n := by
  simp [accSum, Finset.sum_range_succ]

theorem accCount_zero (Y : SY.Idx → BitVec 32) (c : ℕ) : accCount Y c 0 = 0 := by
  simp [accCount]

theorem accCount_succ (Y : SY.Idx → BitVec 32) (c n : ℕ) :
    accCount Y c (n + 1) = accCount Y c n + tileCount Y c n := by
  simp [accCount, Finset.sum_range_succ]

end Cert.ClassMean

end
-- ==== Proof.SpecSum.lean ====
/-
  Pure algebra over the specification of the blended class means.

  Sixteen tiles of 2048 rows are the 32768 rows of the batch, so the sixteen-tile accumulations are the
  class sum and the class count. A real minus itself is zero on the extended reals, so a sum of products
  whose second factors are such differences vanishes.
-/
import Mathlib.Algebra.BigOperators.Group.Finset.Basic
import Mathlib.Data.Fintype.BigOperators
import Mathlib.Data.EReal.Operations
import proofs.«412417_j59760174957097_3_alg».proof.Proof.Spec

noncomputable section

namespace Cert.ClassMean

open Idealize.ShloMosaic Idealize.ShloMosaic.ValueIdx

/-- `n` consecutive tiles of `m` rows are the first `m * n` rows: the sum tile by tile of a function of
the row number is its sum over the rows. By induction on the number of tiles: the last tile is the last
`m` rows. -/
theorem sum_tiles {M : Type*} [AddCommMonoid M] (m : ℕ) (h : ℕ → M) (n : ℕ) :
    (∑ i ∈ Finset.range n, ∑ k : Fin m, h (m * i + k.val)) = ∑ t ∈ Finset.range (m * n), h t := by
  induction n with
  | zero => simp
  | succ n ih =>
    rw [Finset.sum_range_succ, ih, Nat.mul_succ, Finset.sum_range_add,
      Fin.sum_univ_eq_sum_range (fun k => h (m * n + k)) m]

/-- Sixteen tiles of 2048 rows, summed over all 32768 rows. -/
theorem sum_sixteen_tiles {M : Type*} [AddCommMonoid M] (h : ℕ → M) :
    (∑ i ∈ Finset.range 16, ∑ k : Fin 2048, h (2048 * i + k.val)) = ∑ t : Fin 32768, h t.val := by
  rw [sum_tiles 2048 h 16, Fin.sum_univ_eq_sum_range h 32768]

/-- Inside the array the row read at a natural number is the row of the array. -/
theorem xAt_fin (X : SX.Idx → EReal) (t : Fin 32768) (j : Fin 1024) :
    xAt X t.val j.val = X (ix2 t j) := by
  unfold xAt
  rw [dif_pos ⟨t.isLt, j.isLt⟩]

/-- Inside the array the label read at a natural number is the label of the array. -/
theorem yAt_fin (Y : SY.Idx → BitVec 32) (t : Fin 32768) : yAt Y t.val = Y (ix1 t) := by
  unfold yAt
  rw [dif_pos t.isLt]

/-- The sixteen tiles' sum is the class sum. -/
theorem accSum_sixteen (X : SX.Idx → EReal) (Y : SY.Idx → BitVec 32) (c : Fin 1000) (j : Fin 1024) :
    accSum X Y c.val j.val 16 = classSum X Y c j := by
  unfold accSum tileSum classSum
  rw [sum_sixteen_tiles (fun t => ind (yAt Y t) c.val * xAt X t j.val)]
  refine Finset.sum_congr rfl fun t _ => ?_
  rw [xAt_fin, yAt_fin]

/-- The sixteen tiles' count is the class count. -/
theorem accCount_sixteen (Y : SY.Idx → BitVec 32) (c : Fin 1000) :
    accCount Y c.val 16 = classCount Y c := by
  unfold accCount tileCount classCount
  rw [sum_sixteen_tiles (fun t => ind (yAt Y t) c.val)]
  refine Finset.sum_congr rfl fun t _ => ?_
  rw [yAt_fin]

/-- A real minus itself is zero on the extended reals. -/
theorem sub_self_of_real {x : EReal} (h : ∃ r : ℝ, x = (r : EReal)) : x - x = 0 := by
  obtain ⟨r, rfl⟩ := h
  rw [← EReal.coe_sub, sub_self, EReal.coe_zero]

/-- A sum of products whose second factors are reals minus themselves is zero: every term is a product
with zero. -/
theorem tileResidue_zero (f : Fin 2048 → EReal) (g : Fin 2048 → EReal)
    (hg : ∀ k, ∃ r : ℝ, g k = (r : EReal)) :
    (∑ k : Fin 2048, f k * (g k - g k)) = 0 := by
  refine Finset.sum_eq_zero fun k _ => ?_
  rw [sub_self_of_real (hg k), mul_zero]

end Cert.ClassMean

end
-- ==== Proof.Payload.lean ====
/-
  The six values the class-mean kernel stores, each read at one index, over the extended reals.

  The kernel keeps two accumulators, the per-class sums of the embeddings and the per-class counts,
  clears them at the first tile, adds one tile's share at every tile, and at the end blends the
  quotient with the old centroid. Each stored value is a pure function of what was loaded before
  it; here each is evaluated at a coordinate pair:
    * the two cleared accumulators are zero everywhere;
    * the one-hot tile at (class c, row k) is the indicator "the k-th label of the tile is c";
    * the updated sums at (c, e) are the old sums plus the tile's share, which the kernel computes
      as two products (the embeddings and their rounding remainder, which vanishes over the reals
      but is kept here as the kernel writes it);
    * the updated counts at c are the old counts plus the number of the tile's rows labelled c;
    * the blend at (c, e) is the first weight times sum over count plus the second weight times
      the old centroid.
-/
import proofs.«412417_j59760174957097_3_alg».proof.Proof.Gen.KernelIdeal.Skeleton
import proofs.«412417_j59760174957097_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.ClassMean

/-! ## The cleared accumulators -/

/-- The cleared sums: the zero word broadcast, read anywhere, is the real zero. -/
theorem pay1_apply (i : S1000x512.Idx) : k0_pay1 (F := Ideal) i = 0 := by
  unfold k0_pay1
  rw [shapeCast_self]
  exact Ideal.ofBits_zero_f32

/-- The cleared counts, likewise. -/
theorem pay2_apply (i : S1000x1.Idx) : k0_pay2 (F := Ideal) i = 0 := by
  unfold k0_pay2
  rw [shapeCast_self]
  exact Ideal.ofBits_zero_f32

/-! ## The one-hot tile -/

/-- The signed reading of a one-bit comparison widened to a word: `1` when the two words are equal, `0` when not. -/
theorem sitofp_cmpi_eq (y w : BitVec 32) :
    (((((IntOp.cmpi .eq y w).setWidth 32).toInt : ℤ) : ℝ) : EReal) = if y = w then 1 else 0 := by
  by_cases h : y = w
  · subst h
    rw [if_pos rfl]
    have e : IntOp.cmpi .eq y y = 1#1 := by simp [IntOp.cmpi]
    rw [e]
    have e2 : ((1#1 : BitVec 1).setWidth 32).toInt = 1 := by decide
    rw [e2]
    simp
  · rw [if_neg h]
    have e : IntOp.cmpi .eq y w = 0#1 := by simp [IntOp.cmpi, beq_eq_false_iff_ne.mpr h]
    rw [e]
    have e2 : ((0#1 : BitVec 1).setWidth 32).toInt = 0 := by decide
    rw [e2]
    simp

/-- The one-hot tile at (class `c`, row `k`): the label row broadcast along the classes is compared with the class
    number of the row, and the bit converted: the indicator of "row `k`'s label is `c`". -/
theorem onehot_apply (v3 : Vec Ideal S1x2048 .i32) (c : Fin 1000) (k : Fin 2048) :
    k0_pay3 (F := Ideal) v3 (ix2 c k) = ind (v3 (ix2 0 k)) c.val := by
  unfold k0_pay3
  show ((((IntOp.cmpi .eq (broadcastTo S1000x2048 (shapeCast S1x2048 v3 _) _ (ix2 c k))
      (iota .tc S1000x2048 32 [0] _ (ix2 c k))).setWidth 32).toInt : ℝ) : EReal) = _
  rw [broadcastTo_1b_ab_apply, shapeCast_self, iota_single_apply]
  exact sitofp_cmpi_eq _ _

/-! ## A column broadcast along the rows -/

/-- An `[a, 1]` array broadcast to `[a, b]` reads, at `(p, q)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The blend -/

/-- The stored result at (c, e): the first weight times the quotient of the accumulated sum by the accumulated count of
    class `c`, plus the second weight times the old centroid. -/
theorem pay6_apply (v35 : Vec Ideal S1000x512 .f32) (v36 : Vec Ideal S1000x1 .f32) (v41 : Vec Ideal S1000x512 .f32)
    (c : Fin 1000) (e : Fin 512) :
    k0_pay6 (F := Ideal) v35 v36 v41 (ix2 c e) = wNew * Ideal.div (v35 (ix2 c e)) (v36 (ix2 c 0)) + wOld * v41 (ix2 c e) := by
  unfold k0_pay6
  show Ideal.ofBits .f32 0x3E99999A#32 * Ideal.div (v35 (ix2 c e)) (broadcastTo S1000x512 v36 _ (ix2 c e))
      + Ideal.ofBits .f32 0x3F333333#32 * v41 (ix2 c e) = _
  rw [broadcastTo_a1_ab_apply]

/-! ## The counts of one tile -/

/-- A `[1000]` vector viewed as a `[1000, 1]` column reads, at `(c, 0)`, the vector at `c`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The updated counts at class `c`: the old count plus the number of the tile's rows labelled `c` (the sum of the
    one-hot tile along its row). -/
theorem pay5_apply (v3 : Vec Ideal S1x2048 .i32) (v27 : Vec Ideal S1000x1 .f32) (c : Fin 1000) :
    k0_pay5 (F := Ideal) v3 v27 (ix2 c 0) = v27 (ix2 c 0) + ∑ k : Fin 2048, ind (v3 (ix2 0 k)) c.val := by
  unfold k0_pay5
  rw [shapeCast_self]
  show v27 (ix2 c 0) + shapeCast S1000x1 (multiReduction .add [1] S1000 (k0_pay3 (F := Ideal) v3) 0x00000000#32 _ _ _) _
      (ix2 c 0) = _
  rw [shapeCast_a_a1_apply]
  refine congrArg (v27 (ix2 c 0) + ·) ?_
  refine (Ideal.multiReduction_add_single (k0_pay3 (F := Ideal) v3) _ _ _ _ (ix1 c)).trans ?_
  show ∑ k : Fin 2048, k0_pay3 (F := Ideal) v3 (Shape.Reduces.lift reduces_S1000x2048_S1000 (ix1 c) k) = _
  refine Finset.sum_congr rfl fun k _ => ?_
  have e : Shape.Reduces.lift reduces_S1000x2048_S1000 (ix1 c) k = ix2 c k :=
    funext fun a => Fin.ext (by
      match a with
      | ⟨0, _⟩ => rfl
      | ⟨1, _⟩ => rfl)
  rw [e, onehot_apply]

/-! ## The products: the contraction's index maps, coordinate by coordinate -/

/-- The left operand is read at the output's row … -/
theorem lhs_dot_0 (i : S1000x512.Idx) (q : dot_S1000x2048_S2048x512_S1000x512_1_0_0_1_n_n.contr.Idx) :
    (dot_S1000x2048_S2048x512_S1000x512_1_0_0_1_n_n.lhsIdx i q 0).val = (i 0).val := by
  unfold DotDims.lhsIdx
  rw [dif_neg (show ¬(0 : Fin S1000x2048.rank) ∈ dot_S1000x2048_S2048x512_S1000x512_1_0_0_1_n_n.lhsBatch by decide),
    dif_pos (show (0 : Fin S1000x2048.rank) ∈ dot_S1000x2048_S2048x512_S1000x512_1_0_0_1_n_n.lhsNonContracting by decide)]
  rfl

/-- … and at the contraction's coordinate as its column; -/
theorem lhs_dot_1 (i : S1000x512.Idx) (q : dot_S1000x2048_S2048x512_S1000x512_1_0_0_1_n_n.contr.Idx) :
    (dot_S1000x2048_S2048x512_S1000x512_1_0_0_1_n_n.lhsIdx i q 1).val = (q ⟨0, by decide⟩).val :=
  dot_S1000x2048_S2048x512_S1000x512_1_0_0_1_n_n.lhsIdx_val_of_single rfl i q

/-- the right operand at the contraction's coordinate as its row … -/
theorem rhs_dot_0 (i : S1000x512.Idx) (q : dot_S1000x2048_S2048x512_S1000x512_1_0_0_1_n_n.contr.Idx) :
    (dot_S1000x2048_S2048x512_S1000x512_1_0_0_1_n_n.rhsIdx i q 0).val = (q ⟨0, by decide⟩).val :=
  dot_S1000x2048_S2048x512_S1000x512_1_0_0_1_n_n.rhsIdx_val_of_single rfl i q

/-- … and at the output's column. -/
theorem rhs_dot_1 (i : S1000x512.Idx) (q : dot_S1000x2048_S2048x512_S1000x512_1_0_0_1_n_n.contr.Idx) :
    (dot_S1000x2048_S2048x512_S1000x512_1_0_0_1_n_n.rhsIdx i q 1).val = (i 1).val := by
  unfold DotDims.rhsIdx
  rw [dif_neg (show ¬(1 : Fin S2048x512.rank) ∈ dot_S1000x2048_S2048x512_S1000x512_1_0_0_1_n_n.rhsBatch by decide),
    dif_pos (show (1 : Fin S2048x512.rank) ∈ dot_S1000x2048_S2048x512_S1000x512_1_0_0_1_n_n.rhsNonContracting by decide)]
  rfl

/-- A `[1000, 2048]` by `[2048, 512]` product into the zero accumulator, at (c, e): the sum over the 2048 rows of the
    tile of the left operand at (c, k) times the right at (k, e). -/
theorem matmul_zero_apply (A : FVec Ideal S1000x2048 .bf16) (B : FVec Ideal S2048x512 .bf16) (c : Fin 1000) (e : Fin 512) :
    matmul dot_S1000x2048_S2048x512_S1000x512_1_0_0_1_n_n none A B (constant (F := Ideal) S1000x512 .f32 0x00000000#32) (ix2 c e)
      = ∑ k : Fin 2048, A (ix2 c k) * B (ix2 k e) := by
  refine (Ideal.matmul_constant_zero_apply dot_S1000x2048_S2048x512_S1000x512_1_0_0_1_n_n none A B (ix2 c e)).trans ?_
  rw [← Equiv.sum_comp (contrEquiv1 dot_S1000x2048_S2048x512_S1000x512_1_0_0_1_n_n 2048 rfl rfl).symm]
  refine Finset.sum_congr rfl fun k _ => ?_
  have hk := contrEquiv1_symm_val dot_S1000x2048_S2048x512_S1000x512_1_0_0_1_n_n 2048 rfl rfl k
  have el : dot_S1000x2048_S2048x512_S1000x512_1_0_0_1_n_n.lhsIdx (ix2 c e) ((contrEquiv1 dot_S1000x2048_S2048x512_S1000x512_1_0_0_1_n_n 2048 rfl rfl).symm k) = ix2 c k :=
    funext fun a => Fin.ext (by
      match a with
      | ⟨0, _⟩ => exact lhs_dot_0 _ _
      | ⟨1, _⟩ => exact (lhs_dot_1 _ _).trans hk)
  have er : dot_S1000x2048_S2048x512_S1000x512_1_0_0_1_n_n.rhsIdx (ix2 c e) ((contrEquiv1 dot_S1000x2048_S2048x512_S1000x512_1_0_0_1_n_n 2048 rfl rfl).symm k) = ix2 k e :=
    funext fun a => Fin.ext (by
      match a with
      | ⟨0, _⟩ => exact (rhs_dot_0 _ _).trans hk
      | ⟨1, _⟩ => exact rhs_dot_1 _ _)
  rw [el, er]

/-! ## The sums of one tile -/

/-- The updated sums at (c, e): the old sum plus the tile's share, which the kernel takes as two products of the one-hot
    tile, with the embeddings and with what their rounding left over. -/
theorem pay4_apply (v3 : Vec Ideal S1x2048 .i32) (v11 : Vec Ideal S2048x512 .f32) (v19 : Vec Ideal S1000x512 .f32)
    (c : Fin 1000) (e : Fin 512) :
    k0_pay4 (F := Ideal) v3 v11 v19 (ix2 c e)
      = v19 (ix2 c e) + ((∑ k : Fin 2048, ind (v3 (ix2 0 k)) c.val * v11 (ix2 k e))
                        + (∑ k : Fin 2048, ind (v3 (ix2 0 k)) c.val * (v11 (ix2 k e) - v11 (ix2 k e)))) := by
  unfold k0_pay4
  rw [shapeCast_self]
  show v19 (ix2 c e) + (matmul (F := Ideal) _ _ _ _ _ (ix2 c e) + matmul (F := Ideal) _ _ _ _ _ (ix2 c e)) = _
  refine congrArg (v19 (ix2 c e) + ·) ?_
  refine congrArg₂ (· + ·) ((matmul_zero_apply _ _ c e).trans ?_) ((matmul_zero_apply _ _ c e).trans ?_)
  · refine Finset.sum_congr rfl fun k _ => ?_
    show k0_pay3 (F := Ideal) v3 (ix2 c k) * v11 (ix2 k e) = _
    rw [onehot_apply]
  · refine Finset.sum_congr rfl fun k _ => ?_
    show k0_pay3 (F := Ideal) v3 (ix2 c k) * (v11 (ix2 k e) - v11 (ix2 k e)) = _
    rw [onehot_apply]

end Cert.KernelIdeal.Pay

end
-- ==== Proof.Accumulate.lean ====
/-
  The kernel's accumulation, at the ideal instance, against the specification.

  Point `t` of the grid is feature half `t / 16`, batch tile `t % 16`. The body adds to a [1000, 512] sum
  accumulator the product of the tile's one-hot label matrix with the tile's embeddings (and, a second time, with
  the embeddings minus themselves: zero, the embeddings being real), and to a [1000, 1] count accumulator the
  one-hot matrix's row sums. So after tile `i` of a half the accumulators hold the first `i + 1` tiles' class sums
  and class counts; after the sixteenth they hold the class sums and counts of the whole batch, and the block the
  body then writes is the blended class mean.
-/
import proofs.«412417_j59760174957097_3_alg».proof.Proof.Gen.KernelIdeal.Frame
import Idealize.ShloMosaic.Lib.Pipeline.Value
import Idealize.ShloMosaic.Lib.Tactic
import proofs.«412417_j59760174957097_3_alg».proof.Proof.Steps
import proofs.«412417_j59760174957097_3_alg».proof.Proof.Blocks
import proofs.«412417_j59760174957097_3_alg».proof.Proof.SpecSum
import proofs.«412417_j59760174957097_3_alg».proof.Proof.Payload

noncomputable section

namespace Cert.KernelIdeal.Acc

open Cert.KernelIdeal Cert.KernelIdeal.Gen
open Idealize.ShloMosaic Idealize.ShloMosaic.TcCoe Idealize.SL.Sem
open Idealize.ShloMosaic.Pipeline (Dat)

variable {F : FTy → Type} [FloatOps F]

open Idealize.ShloMosaic.ValueIdx Cert.ClassMean Cert.KernelIdeal.Steps Cert.KernelIdeal.Blocks
open Cert.KernelIdeal.Pay

variable (m : (ℓ : Loc nD τ sig) → Buf (Elt Ideal) ℓ)

/-- The three argument arrays as the programs are launched with them, on core `c`. -/
abbrev argX (c : Dev nD) : SX.Idx → EReal := m ((c : Thread nD τ).loc main_arg0)
abbrev argY (c : Dev nD) : SY.Idx → BitVec 32 := m ((c : Thread nD τ).loc main_arg1)
abbrev argC (c : Dev nD) : SC.Idx → EReal := m ((c : Thread nD τ).loc main_arg2)

theorem point_lt (t : Fin cfg0.N) : t.val < 32 := lt_of_lt_of_eq t.isLt (show cfg0.N = 32 from N_0)

/-- At point `t` the body adds to the sum accumulator tile `t % 16`'s share of the class sums of features
    `512 (t / 16) + e`: the one-hot product with the embeddings' block is that share, and the product with the
    block minus itself vanishes because the embeddings are real. -/
theorem sumStep (hfin : ∀ c i, ∃ r : ℝ, argX m c i = (r : EReal)) (c : Dev nD) (t : Fin cfg0.N)
    (a : Vec Ideal S1000x512 .f32) (r : Fin 1000) (e : Fin 512) :
    k0_pay4 (F := Ideal) (yblk m c t) (xblk m c t) a (ix2 r e)
      = a (ix2 r e) + tileSum (argX m c) (argY m c) r.val (512 * (t.val / 16) + e.val) (t.val % 16) := by
  have hN := point_lt t
  have hk : ∀ k : Fin 2048, 2048 * (t.val % 16) + k.val < 32768 := fun k => by have := k.isLt; omega
  have he : 512 * (t.val / 16) + e.val < 1024 := by have := e.isLt; omega
  refine (pay4_apply (yblk m c t) (xblk m c t) a r e).trans ?_
  have hx : ∀ k : Fin 2048, xblk m c t (ix2 k e) = xAt (argX m c) (2048 * (t.val % 16) + k.val) (512 * (t.val / 16) + e.val) := fun k => by
    rw [show xblk m c t (ix2 k e) = _ from embedBlock m c t k e (hk k) he]
    unfold xAt; rw [dif_pos ⟨hk k, he⟩]
  have hy : ∀ k : Fin 2048, yblk m c t (ix2 (0 : Fin 1) k) = yAt (argY m c) (2048 * (t.val % 16) + k.val) := fun k => by
    rw [show yblk m c t (ix2 (0 : Fin 1) k) = _ from labelBlock m c t k (hk k)]
    unfold yAt; rw [dif_pos (hk k)]
  rw [tileResidue_zero _ (fun k => xblk m c t (ix2 k e)) (fun k => by
    rw [show xblk m c t (ix2 k e) = _ from embedBlock m c t k e (hk k) he]; exact hfin c _), add_zero]
  unfold tileSum
  exact congrArg (a (ix2 r e) + ·) (Finset.sum_congr rfl fun k _ => by rw [hx k, hy k])

/-- At point `t` the body adds to the count accumulator tile `t % 16`'s share of the class counts. -/
theorem cntStep (c : Dev nD) (t : Fin cfg0.N) (a : Vec Ideal S1000x1 .f32) (r : Fin 1000) :
    k0_pay5 (F := Ideal) (yblk m c t) a (ix2 r (0 : Fin 1))
      = a (ix2 r (0 : Fin 1)) + tileCount (argY m c) r.val (t.val % 16) := by
  have hN := point_lt t
  have hk : ∀ k : Fin 2048, 2048 * (t.val % 16) + k.val < 32768 := fun k => by have := k.isLt; omega
  refine (pay5_apply (yblk m c t) a r).trans ?_
  unfold tileCount
  refine congrArg (a (ix2 r (0 : Fin 1)) + ·) (Finset.sum_congr rfl fun k _ => ?_)
  rw [show yblk m c t (ix2 (0 : Fin 1) k) = _ from labelBlock m c t k (hk k)]
  unfold yAt; rw [dif_pos (hk k)]

/-- THE ACCUMULATION. After point `n` (feature half `n / 16`, batch tile `n % 16`) the sum accumulator holds the
    first `n % 16 + 1` tiles' class sums of the half's features and the count accumulator the same tiles' class
    counts: a first tile starts from zero, a later one from what the tile before left. -/
theorem acc_eq (hfin : ∀ c i, ∃ r : ℝ, argX m c i = (r : EReal)) (c : Dev nD) :
    ∀ (n : ℕ) (h : n < cfg0.N) (r : Fin 1000),
      (∀ e : Fin 512, (outsAt0 m c n h).2.1 (ix2 r e)
          = accSum (argX m c) (argY m c) r.val (512 * (n / 16) + e.val) (n % 16 + 1))
      ∧ (outsAt0 m c n h).2.2 (ix2 r (0 : Fin 1)) = accCount (argY m c) r.val (n % 16 + 1)
  | 0, h, r => by
    have h0 : (⟨0, h⟩ : Fin cfg0.N).val % 16 = 0 := rfl
    have h1 : ¬(⟨0, h⟩ : Fin cfg0.N).val % 16 = 15 := by show ¬(0 : ℕ) % 16 = 15; decide
    refine ⟨fun e => ?_, ?_⟩
    · rw [show (outsAt0 m c 0 h).2.1 = _ from sumAt_first m c ⟨0, h⟩ h0 h1, sumStep m hfin c ⟨0, h⟩, pay1_apply]
      show 0 + tileSum _ _ _ _ 0 = accSum _ _ _ _ 1
      rw [accSum_succ, accSum_zero]
    · rw [show (outsAt0 m c 0 h).2.2 = _ from cntAt_first m c ⟨0, h⟩ h0 h1, cntStep m c ⟨0, h⟩, pay2_apply]
      show 0 + tileCount _ _ 0 = accCount _ _ 1
      rw [accCount_succ, accCount_zero]
  | n + 1, h, r => by
    have hN : n + 1 < 32 := lt_of_lt_of_eq h (show cfg0.N = 32 from N_0)
    have ih := acc_eq hfin c n (Nat.lt_of_succ_lt h) r
    by_cases h0 : (n + 1) % 16 = 0
    · have h1 : ¬(n + 1) % 16 = 15 := by omega
      refine ⟨fun e => ?_, ?_⟩
      · rw [show (outsAt0 m c (n + 1) h).2.1 = _ from sumAt_first m c ⟨n + 1, h⟩ h0 h1, sumStep m hfin c ⟨n + 1, h⟩, pay1_apply]
        show 0 + tileSum _ _ _ _ ((n + 1) % 16) = accSum _ _ _ _ ((n + 1) % 16 + 1)
        rw [h0, accSum_succ, accSum_zero]
      · rw [show (outsAt0 m c (n + 1) h).2.2 = _ from cntAt_first m c ⟨n + 1, h⟩ h0 h1, cntStep m c ⟨n + 1, h⟩, pay2_apply]
        show 0 + tileCount _ _ ((n + 1) % 16) = accCount _ _ ((n + 1) % 16 + 1)
        rw [h0, accCount_succ, accCount_zero]
    · have hd : n / 16 = (n + 1) / 16 := by omega
      have hm : n % 16 + 1 = (n + 1) % 16 := by omega
      have hsum : ∀ e : Fin 512, (outsAt0 m c (n + 1) h).2.1 (ix2 r e)
          = accSum (argX m c) (argY m c) r.val (512 * ((n + 1) / 16) + e.val) ((n + 1) % 16 + 1) := fun e => by
        have hs : (outsAt0 m c (n + 1) h).2.1 = k0_pay4 (yblk m c ⟨n + 1, h⟩) (xblk m c ⟨n + 1, h⟩) (sumBefore m c ⟨n + 1, h⟩) := by
          by_cases h1 : (n + 1) % 16 = 15
          · exact sumAt_last m c ⟨n + 1, h⟩ h0 h1
          · exact sumAt_middle m c ⟨n + 1, h⟩ h0 h1
        rw [hs, sumStep m hfin c ⟨n + 1, h⟩]
        show (outsAt0 m c n _).2.1 (ix2 r e) + tileSum _ _ _ _ ((n + 1) % 16) = _
        rw [(ih.1 e), hd, hm, ← accSum_succ]
      have hcnt : (outsAt0 m c (n + 1) h).2.2 (ix2 r (0 : Fin 1)) = accCount (argY m c) r.val ((n + 1) % 16 + 1) := by
        have hs : (outsAt0 m c (n + 1) h).2.2 = k0_pay5 (yblk m c ⟨n + 1, h⟩) (cntBefore m c ⟨n + 1, h⟩) := by
          by_cases h1 : (n + 1) % 16 = 15
          · exact cntAt_last m c ⟨n + 1, h⟩ h0 h1
          · exact cntAt_middle m c ⟨n + 1, h⟩ h0 h1
        rw [hs, cntStep m c ⟨n + 1, h⟩]
        show (outsAt0 m c n _).2.2 (ix2 r (0 : Fin 1)) + tileCount _ _ ((n + 1) % 16) = _
        rw [ih.2, hm, ← accCount_succ]
      exact ⟨hsum, hcnt⟩

/-- THE OUTPUT BLOCK. At the last tile of a feature half (`t % 16 = 15`) the block the body writes holds the
    blended class means of the half's features: the accumulators after this tile are the sixteen-tile sums and
    counts, that is the class sums and counts. -/
theorem out_eq (hfin : ∀ c i, ∃ r : ℝ, argX m c i = (r : EReal)) (c : Dev nD) (t : Fin cfg0.N) (h1 : t.val % 16 = 15)
    (r : Fin 1000) (e : Fin 512) (he : 512 * (t.val / 16) + e.val < 1024) :
    (outsAt0 m c t.val t.isLt).1 (ix2 r e)
      = blend (argX m c) (argY m c) (argC m c) (ix2 r ⟨512 * (t.val / 16) + e.val, he⟩) := by
  have h0 : ¬t.val % 16 = 0 := by omega
  have hacc := acc_eq m hfin c t.val t.isLt r
  rw [outAt_last m c t h0 h1, pay6_apply]
  rw [← sumAt_last m c t h0 h1, ← cntAt_last m c t h0 h1, hacc.1 e, hacc.2, h1]
  rw [show cblk m c t (ix2 r e) = _ from centroidBlock m c t r e he]
  show _ = wNew * Ideal.div (classSum _ _ r ⟨512 * (t.val / 16) + e.val, he⟩) (classCount _ r) + wOld * _
  rw [← accSum_sixteen (argX m c) (argY m c) r ⟨512 * (t.val / 16) + e.val, he⟩, ← accCount_sixteen (argY m c) r]

end Cert.KernelIdeal.Acc

end
-- ==== Proof.Result.lean ====
/-
  The idealized kernel's result array, as one function of the arguments.

  The output is written back twice, once per feature half, after the half's sixteenth batch tile; what is
  written is the half's 512 columns of the blended class means. The two halves' blocks cover the [1000, 1024]
  array, so after the run the array IS the blended class means.
-/
import proofs.«412417_j59760174957097_3_alg».proof.Proof.Gen.KernelIdeal.Frame
import Idealize.ShloMosaic.Lib.Pipeline.Value
import Idealize.ShloMosaic.Lib.Tactic
import proofs.«412417_j59760174957097_3_alg».proof.Proof.Accumulate
import proofs.«412417_j59760174957097_3_alg».proof.Proof.Gen.KernelIdeal.Value

noncomputable section

namespace Cert.KernelIdeal.Result

open Cert.KernelIdeal Cert.KernelIdeal.Gen
open Idealize.ShloMosaic Idealize.ShloMosaic.TcCoe Idealize.SL.Sem
open Idealize.ShloMosaic.Pipeline (Dat)

variable {F : FTy → Type} [FloatOps F]

open Idealize.ShloMosaic.ValueIdx Cert.ClassMean Cert.KernelIdeal.Blocks Cert.KernelIdeal.Acc

variable (m : (ℓ : Loc nD τ sig) → Buf (Elt Ideal) ℓ) (ρ : Dev nD → PrngReg)

/-- The specification as contents of the result array. -/
abbrev result (c : Dev nD) : Buf (Elt Ideal) ((c : Thread nD τ).loc main_v1) :=
  blend (argX m c) (argY m c) (argC m c)

/-- WHAT A WRITE-BACK WRITES. The result's block is written back after the last tile of each feature half, and
    what is written is that half's columns of the blended class means. -/
theorem flushed_eq (hfin : ∀ c i, ∃ r : ℝ, argX m c i = (r : EReal)) (c : Dev nD) (t : Fin cfg0.N)
    (hf : (cfg0.win 3).flush t = true) :
    (dats m 0 c).flushed 3 t = ((cfg0.win 3).blk t).view.read (Elt Ideal) (result m c) := by
  have h1 : t.val % 16 = 15 := (flush0_3 t).mp hf
  have hN := point_lt t
  rw [Cert.KernelIdeal.Value.flushed3]
  funext j
  obtain ⟨r, e, rfl⟩ : ∃ (r : Fin 1000) (e : Fin 512), j = ix2 r e := ⟨j 0, j 1, eq_ix2 j⟩
  have he : 512 * (t.val / 16) + e.val < 1024 := by have := e.isLt; omega
  show (outsAt0 m c t.val t.isLt).1 (ix2 r e) = result m c (((cfg0.win 3).blk t).view.emb (ix2 r e))
  rw [out_eq m hfin c t h1 r e he]
  show blend _ _ _ _ = blend _ _ _ _
  congr 1
  funext a
  apply Fin.ext
  match a with
  | ⟨0, _⟩ => show r.val = win0_3.index t 0 * 1000 + 1 * r.val; rw [(idxOut t).1]; omega
  | ⟨1, _⟩ => show 512 * (t.val / 16) + e.val = win0_3.index t 1 * 512 + 1 * e.val; rw [(idxOut t).2]; omega

/-- An index of the result array is in point `t`'s block iff each coordinate is in the block's range on its axis. -/
theorem mem_block (t : Fin cfg0.N) (i : S1000x1024.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v1).slice (win0_3.rect t)).set ↔ _
  rw [View.set_slice_whole, Rect.mem_set_unit]
  exact Iff.rfl

/-- THE RESULT ARRAY after the run: every column lies in one of the two halves, and the half's last tile writes
    it, so the whole array is the blended class means. -/
theorem final (hfin : ∀ c i, ∃ r : ℝ, argX m c i = (r : EReal)) (c : Dev nD) :
    (dats m 0 c).arrAt 3 cfg0.N = result m c :=
  (dats m 0 c).arrAt_eq_of_cover 3 (result m c) (flushed_eq m hfin c) fun i => by
    have hi0 : (i 0).val < 1000 := (i 0).isLt
    have hi1 : (i 1).val < 1024 := (i 1).isLt
    have hlt : 16 * ((i 1).val / 512) + 15 < cfg0.N := by rw [show cfg0.N = 32 from N_0]; omega
    refine ⟨⟨16 * ((i 1).val / 512) + 15, hlt⟩, (flush0_3 _).mpr (by show (16 * ((i 1).val / 512) + 15) % 16 = 15; omega), ?_⟩
    rw [mem_block]
    have hq : (16 * ((i 1).val / 512) + 15) / 16 = (i 1).val / 512 := by omega
    intro a
    match a with
    | ⟨0, _⟩ =>
      show win0_3.index ⟨16 * ((i 1).val / 512) + 15, hlt⟩ 0 * 1000 ≤ (i 0).val ∧ (i 0).val < win0_3.index ⟨16 * ((i 1).val / 512) + 15, hlt⟩ 0 * 1000 + 1000
      rw [(idxOut ⟨16 * ((i 1).val / 512) + 15, hlt⟩).1]; omega
    | ⟨1, _⟩ =>
      show win0_3.index ⟨16 * ((i 1).val / 512) + 15, hlt⟩ 1 * 512 ≤ (i 1).val ∧ (i 1).val < win0_3.index ⟨16 * ((i 1).val / 512) + 15, hlt⟩ 1 * 512 + 512
      rw [(idxOut ⟨16 * ((i 1).val / 512) + 15, hlt⟩).2]
      show (16 * ((i 1).val / 512) + 15) / 16 * 512 ≤ (i 1).val ∧ (i 1).val < (16 * ((i 1).val / 512) + 15) / 16 * 512 + 512
      rw [hq]; omega

/-- THE RUN, READ: every weakly fair execution of the idealized kernel ends with the result array at the blended
    class means of the arguments, and the arguments unchanged. -/
theorem run (hfin : ∀ c i, ∃ r : ℝ, argX m c i = (r : EReal)) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hfin c), (h c).2⟩)
    (Cert.KernelIdeal.Value.run_blocks m ρ)

end Cert.KernelIdeal.Result

end
-- ==== Proof.RefBlend.lean ====
/-
  The reference program, read at the ideal instance, is the blended class mean of the specification.

  The reference makes the class sums and the class counts by two accumulating scatters over the batch: update row `t`
  is added at the operand row its label names, the label read as a signed integer and not clamped, and an update whose
  row falls outside `0 … 999` is dropped. So the sums' scatter at `(c, j)` is the zero accumulator plus the sum of
  `X (t, j)` over the rows `t` whose label is `c`, and the counts' scatter at `c` is the zero accumulator plus a `1`
  for each such row. For `c < 1000` "the label read signed is `c`" is "the label is the 32-bit word of `c`", which is
  the specification's indicator. The remaining stages are read index by index: the quotient, the two weights as the
  words both sides carry, the sum with the weighted old centroid.
-/
import proofs.«412417_j59760174957097_3_alg».proof.Proof.Gen.ReferenceIdeal.Read
import proofs.«412417_j59760174957097_3_alg».proof.Proof.Spec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx Cert.ClassMean

/-- The two scatter records of the reference: the one of the class sums and the one of the class counts. -/
abbrev dS := scatter_S1000x1024_S32768x1_S32768x1024_1_0_0_1
abbrev dC := scatter_S1000_S32768x1_S32768_n_0_0_1

/-! ## Words -/

/-- The word of the float `1.0` is the extended real `1`: exponent field 127, fraction 0. -/
theorem ofBits_one_f32 : Ideal.ofBits .f32 0x3F800000#32 = 1 := by
  simp [Ideal.ofBits, Ideal.ieee]
  rw [← EReal.coe_mul, ← EReal.coe_one]
  congr 1
  norm_num

/-- For a class number below 1000 a label read as a signed integer is that number exactly when the label is
    the number's 32-bit word: a word with the top bit set reads negative, and below `2 ^ 31` the signed and
    the unsigned readings agree. -/
theorem toInt_eq_iff (y : BitVec 32) (c : Nat) (hc : c < 1000) :
    y.toInt = (c : Int) ↔ y = BitVec.ofNat 32 c := by
  constructor
  · intro h
    apply BitVec.eq_of_toNat_eq
    rw [BitVec.toNat_ofNat]
    have := y.isLt
    unfold BitVec.toInt at h
    split at h <;> omega
  · rintro rfl
    unfold BitVec.toInt
    rw [BitVec.toNat_ofNat]
    have : c % 2 ^ 32 = c := Nat.mod_eq_of_lt (by omega)
    rw [this]
    split <;> omega

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx := ⟨ix1, fun i => i 0, fun _ => rfl, fun i => (eq_ix1 i).symm⟩
  exact (Equiv.sum_comp e f).symm

/-! ## The scatter of the sums: where an update lands

The operand is `[1000, 1024]`, the updates `[32768, 1024]`, the scatter indices `[32768, 1]`. Operand axis 0 is
the inserted one and the one the start index names; operand axis 1 is the window axis, fed by update axis 1. So update
`(t, j')` starts at row `idx (t, 0)` read signed, column `0`, and its window coordinate is `(0, j')`. -/

theorem rank2_cases (a : Fin S1000x1024.rank) : a = 0 ∨ a = 1 := by
  match a with
  | ⟨0, _⟩ => exact Or.inl rfl
  | ⟨1, _⟩ => exact Or.inr rfl

theorem dS_start0 {w : Nat} (j : S32768x1024.Idx) (idx : IVec S32768x1 w) :
    dS.start j idx 0 = (idx (ix2 (j 0) 0)).toInt := by
  unfold ScatterDims.start
  rw [dif_pos (by decide)]
  congr 2
  funext b
  match b with
  | ⟨0, _⟩ => rfl
  | ⟨1, _⟩ => rfl

theorem dS_start1 {w : Nat} (j : S32768x1024.Idx) (idx : IVec S32768x1 w) : dS.start j idx 1 = 0 := by
  unfold ScatterDims.start
  rw [dif_neg (by decide)]

theorem dS_window0 (j : S32768x1024.Idx) : dS.window j 0 = 0 := by
  unfold ScatterDims.window
  rw [dif_neg (by decide)]

theorem dS_window1 (j : S32768x1024.Idx) : dS.window j 1 = (j 1).val := by
  unfold ScatterDims.window
  rw [dif_pos (by decide)]
  rfl

/-- Update `(t, j')` lands at `(c, j)` exactly when row `t`'s start index, read signed, is `c` and `j' = j`;
    a start index outside `0 … 999` lands nowhere. -/
theorem dS_resultIdx_iff {w : Nat} (idx : IVec S32768x1 w) (t : Fin 32768) (j' : Fin 1024) (c : Fin 1000) (j : Fin 1024) :
    dS.resultIdx? (ix2 t j') idx = some (ix2 c j) ↔ (idx (ix2 t 0)).toInt = (c.val : Int) ∧ j' = j := by
  have hs0 : dS.start (ix2 t j') idx 0 = (idx (ix2 t 0)).toInt := dS_start0 (ix2 t j') idx
  have hs1 := dS_start1 (ix2 t j') idx
  have hw0 := dS_window0 (ix2 t j')
  have hw1 : dS.window (ix2 t j') 1 = j'.val := dS_window1 (ix2 t j')
  have hc := c.isLt
  have hj' := j'.isLt
  constructor
  · intro h
    unfold ScatterDims.resultIdx? at h
    split at h
    · rename_i hb
      have h' := Option.some.inj h
      have h0 : (dS.start (ix2 t j') idx 0 + ((dS.window (ix2 t j') 0 : Nat) : Int)).toNat = c.val :=
        congrArg Fin.val (congrFun h' 0)
      have h1 : (dS.start (ix2 t j') idx 1 + ((dS.window (ix2 t j') 1 : Nat) : Int)).toNat = j.val :=
        congrArg Fin.val (congrFun h' 1)
      have hb0 := (hb 0).1
      rw [hs0, hw0] at h0 hb0
      rw [hs1, hw1] at h1
      exact ⟨by omega, Fin.ext (by omega)⟩
    · exact absurd h (by simp)
  · rintro ⟨h0, rfl⟩
    unfold ScatterDims.resultIdx?
    have hb : ∀ a : Fin S1000x1024.rank, 0 ≤ dS.start (ix2 t j') idx a + ((dS.window (ix2 t j') a : Nat) : Int) ∧
        dS.start (ix2 t j') idx a + ((dS.window (ix2 t j') a : Nat) : Int) < ((S1000x1024.size a : Nat) : Int) := by
      intro a
      rcases rank2_cases a with rfl | rfl
      · rw [hs0, hw0]
        show 0 ≤ (idx (ix2 t 0)).toInt + ((0 : Nat) : Int) ∧ (idx (ix2 t 0)).toInt + ((0 : Nat) : Int) < ((1000 : Nat) : Int)
        omega
      · rw [hs1, hw1]
        show 0 ≤ 0 + ((j'.val : Nat) : Int) ∧ (0 : Int) + ((j'.val : Nat) : Int) < ((1024 : Nat) : Int)
        omega
    rw [dif_pos hb]
    congr 1
    funext a
    rcases rank2_cases a with rfl | rfl
    · apply Fin.ext
      show (dS.start (ix2 t j') idx 0 + ((dS.window (ix2 t j') 0 : Nat) : Int)).toNat = c.val
      rw [hs0, hw0]; omega
    · apply Fin.ext
      show (dS.start (ix2 t j') idx 1 + ((dS.window (ix2 t j') 1 : Nat) : Int)).toNat = j'.val
      rw [hs1, hw1]; omega

/-! ## The scatter of the counts: where an update lands

The operand is `[1000]`, the updates `[32768]`, the scatter indices `[32768, 1]`; there is no window axis. Update
`t` starts at `idx (t, 0)` read signed and its window coordinate is `0`. -/

theorem rank1_cases (a : Fin S1000.rank) : a = 0 := by
  match a with
  | ⟨0, _⟩ => rfl

theorem dC_start0 {w : Nat} (j : S32768.Idx) (idx : IVec S32768x1 w) :
    dC.start j idx 0 = (idx (ix2 (j 0) 0)).toInt := by
  unfold ScatterDims.start
  rw [dif_pos (by decide)]
  congr 2
  funext b
  match b with
  | ⟨0, _⟩ => rfl
  | ⟨1, _⟩ => rfl

theorem dC_window0 (j : S32768.Idx) : dC.window j 0 = 0 := by
  unfold ScatterDims.window
  rw [dif_neg (by decide)]

/-- Update `t` lands at `c` exactly when row `t`'s start index, read signed, is `c`. -/
theorem dC_resultIdx_iff {w : Nat} (idx : IVec S32768x1 w) (t : Fin 32768) (c : Fin 1000) :
    dC.resultIdx? (ix1 t) idx = some (ix1 c) ↔ (idx (ix2 t 0)).toInt = (c.val : Int) := by
  have hs0 : dC.start (ix1 t) idx 0 = (idx (ix2 t 0)).toInt := dC_start0 (ix1 t) idx
  have hw0 := dC_window0 (ix1 t)
  have hc := c.isLt
  constructor
  · intro h
    unfold ScatterDims.resultIdx? at h
    split at h
    · rename_i hb
      have h' := Option.some.inj h
      have h0 : (dC.start (ix1 t) idx 0 + ((dC.window (ix1 t) 0 : Nat) : Int)).toNat = c.val :=
        congrArg Fin.val (congrFun h' 0)
      have hb0 := (hb 0).1
      rw [hs0, hw0] at h0 hb0
      omega
    · exact absurd h (by simp)
  · intro h0
    unfold ScatterDims.resultIdx?
    have hb : ∀ a : Fin S1000.rank, 0 ≤ dC.start (ix1 t) idx a + ((dC.window (ix1 t) a : Nat) : Int) ∧
        dC.start (ix1 t) idx a + ((dC.window (ix1 t) a : Nat) : Int) < ((S1000.size a : Nat) : Int) := by
      intro a
      rw [rank1_cases a, hs0, hw0]
      show 0 ≤ (idx (ix2 t 0)).toInt + ((0 : Nat) : Int) ∧ (idx (ix2 t 0)).toInt + ((0 : Nat) : Int) < ((1000 : Nat) : Int)
      omega
    rw [dif_pos hb]
    congr 1
    funext a
    rw [rank1_cases a]
    apply Fin.ext
    show (dC.start (ix1 t) idx 0 + ((dC.window (ix1 t) 0 : Nat) : Int)).toNat = c.val
    rw [hs0, hw0]; omega

/-! ## The two scatter stages read at an index -/

theorem idx_v1 (t : Fin 32768) : Read.idx_main_v1 (ix2 t (0 : Fin 1)) = ix1 t := by
  funext a
  match a with
  | ⟨0, _⟩ => rfl

theorem idx_v5 (t : Fin 32768) : Read.idx_main_v5 (ix2 t (0 : Fin 1)) = ix1 t := by
  funext a
  match a with
  | ⟨0, _⟩ => rfl

theorem idx_v78 (c : Fin 1000) (j : Fin 1024) : Read.idx_main_v7 (Read.idx_main_v8 (ix2 c j)) = ix1 c := by
  funext a
  match a with
  | ⟨0, _⟩ => rfl

/-- The indicator times a value is the value where the label is the class and `0` elsewhere. -/
theorem ind_mul (y : BitVec 32) (c : ℕ) (x : EReal) : ind y c * x = if y = BitVec.ofNat 32 c then x else 0 := by
  unfold ind
  split <;> simp

/-- The scatter of the sums at `(c, j)`: the zero accumulator plus the rows whose label is `c`. -/
theorem v2_apply (X : (⟨S32768x1024, .f32⟩ : BufTy).Contents (Elt Ideal)) (Y : (⟨S32768, .i32⟩ : BufTy).Contents (Elt Ideal))
    (c : Fin 1000) (j : Fin 1024) :
    Read.val_main_v2 (F := Ideal) X Y (ix2 c j) = classSum X Y c j := by
  unfold Read.val_main_v2 Host.scatterAdd
  rw [Ideal.hostScatterAdd_def]
  unfold Ideal.hostScatterAdd
  rw [Read.val_main_v0_apply, Read.val_main_cst_apply]
  rw [Ideal.ofBits_def, Ideal.ofBits_zero_f32, zero_add, Finset.sum_filter, sum_idx2]
  unfold classSum
  refine Finset.sum_congr rfl fun t _ => ?_
  simp only [dS_resultIdx_iff]
  rw [Read.val_main_v1_apply, idx_v1, ind_mul]
  simp only [toInt_eq_iff (Y (ix1 t)) c.val c.isLt]
  by_cases hy : Y (ix1 t) = BitVec.ofNat 32 c.val
  · simp only [hy, true_and, if_true]
    exact (Finset.sum_ite_eq' Finset.univ j fun j' => X (ix2 t j')).trans (if_pos (Finset.mem_univ j))
  · simp only [hy, false_and, if_false]
    exact Finset.sum_const_zero

/-- The scatter of the counts at `c`: the zero accumulator plus a `1` for each row whose label is `c`. -/
theorem v6_apply (Y : (⟨S32768, .i32⟩ : BufTy).Contents (Elt Ideal)) (c : Fin 1000) :
    Read.val_main_v6 (F := Ideal) Y (ix1 c) = classCount Y c := by
  unfold Read.val_main_v6 Host.scatterAdd
  rw [Ideal.hostScatterAdd_def]
  unfold Ideal.hostScatterAdd
  rw [Read.val_main_v4_apply, Read.val_main_cst_1_apply, Ideal.ofBits_def, Ideal.ofBits_zero_f32, zero_add,
    Finset.sum_filter, sum_idx1]
  unfold classCount
  refine Finset.sum_congr rfl fun t _ => ?_
  simp only [dC_resultIdx_iff]
  rw [Read.val_main_v5_apply, idx_v5, Read.val_main_v3_apply, Read.val_main_cst_0_apply, Ideal.ofBits_def,
    ofBits_one_f32]
  simp only [toInt_eq_iff (Y (ix1 t)) c.val c.isLt]
  rfl

/-! ## The reference is the blend -/

theorem ref_eq_blend (X : (⟨S32768x1024, .f32⟩ : BufTy).Contents (Elt Ideal)) (Y : (⟨S32768, .i32⟩ : BufTy).Contents (Elt Ideal))
    (Cn : (⟨S1000x1024, .f32⟩ : BufTy).Contents (Elt Ideal)) :
    Cert.ReferenceIdeal.Read.val_main_v14 (F := Ideal) X Y Cn = Cert.ClassMean.blend X Y Cn := by
  funext i
  obtain ⟨c, j, rfl⟩ : ∃ c j, i = ix2 c j := ⟨i 0, i 1, eq_ix2 i⟩
  rw [Read.val_main_v14_apply, Read.val_main_v11_apply, Read.val_main_v13_apply, Read.val_main_v10_apply,
    Read.val_main_v12_apply, Read.val_main_v9_apply, Read.val_main_v8_apply, Read.val_main_v7_apply,
    Read.val_main_cst_2_apply, Read.val_main_cst_3_apply, idx_v78, v2_apply, v6_apply,
    Ideal.addf_def, Ideal.mulf_def, Ideal.mulf_def, Ideal.hostDivf_def, Ideal.ofBits_def, Ideal.ofBits_def]
  rfl

end Cert.ReferenceIdeal.RefValue

end
-- ==== Proof.Finite.lean ====
/-
  The precondition, decoded: every element of the embeddings is a real number.

  The printed predicate is the conjunction of two statements "every element is below +∞ in absolute
  value", one for the embeddings and one for the centroids. Each is a reduction by `and` over all axes of
  the elementwise comparison `|x| < +∞`, so the predicate being true gives the comparison at every index.
  On the extended reals `|x| = max x (-x)`, and `max x (-x) < ⊤` excludes both `⊤` and `⊥`: what is left
  is a real.
-/
import proofs.«412417_j59760174957097_3_alg».proof.Pre_finite_inputs
import proofs.«412417_j59760174957097_3_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx

/-- The rank-0 shape has one index: an index is a function out of the empty set of axes. -/
instance subsingleton_scalarIdx : Subsingleton Cert.Pre_finite_inputs.S_.Idx :=
  ⟨fun _ _ => funext fun d => d.elim0⟩

/-- The word `0x7F800000` is `+∞`: the exponent field is all ones, the fraction is zero, the sign is
clear. -/
theorem ofBits_inf : Ideal.ofBits .f32 0x7F800000#32 = (⊤ : EReal) := by
  simp [Ideal.ofBits, Ideal.ieee]

/-- An extended real whose absolute value compares below `⊤` is a real: at `⊥` and at `⊤` the absolute
value `max x (-x)` is `⊤`, which is not below itself. -/
theorem real_of_abs_lt_top {x : EReal} (h : Ideal.cmp CmpFPredicate.olt (max x (-x)) ⊤ = 1#1) :
    ∃ r : ℝ, x = (r : EReal) := by
  induction x using EReal.rec with
  | bot => simp [Ideal.cmp] at h
  | coe r => exact ⟨r, rfl⟩
  | top => simp [Ideal.cmp] at h

/-- Under the precondition every element of the embeddings is a real. -/
theorem embed_real [hP : Cert.Pre_finite_inputs.Facts]
    (X : FVec Ideal Cert.Pre_finite_inputs.S32768x1024 .f32)
    (Y : IVec Cert.Pre_finite_inputs.S32768 32)
    (Cn : FVec Ideal Cert.Pre_finite_inputs.S1000x1024 .f32)
    (h : Cert.Pre_finite_inputs.fn (F := Ideal) X Y Cn = fun _ => 1#1) :
    ∀ i, ∃ r : ℝ, X i = (r : EReal) := by
  intro i
  -- the predicate at its one index: a conjunction of two reductions by `and`
  have h0 := congrFun h ValueIdx.ix0
  dsimp only [Cert.Pre_finite_inputs.fn] at h0
  -- the first conjunct is the embeddings'; a reduction by `and` over all axes that is 1 is 1 at index `i`
  have h1 := (IntOp.andi_eq_one.1 h0).1
  have h2 := Host.reduce_andi_all _ _ _ _ _ h1 i
  rw [cmpf_apply] at h2
  -- the element fact: `|X i|` compares below the splat of the word `0x7F800000`, which is `⊤`
  have h3 : Ideal.cmp CmpFPredicate.olt (max (X i) (-(X i))) (Ideal.ofBits .f32 0x7F800000#32) = 1#1 := h2
  rw [ofBits_inf] at h3
  exact real_of_abs_lt_top h3

end Cert.FiniteInputs

end
-- ==== Proof.lean ====
/-
  The certificate of the class-centroid update: a kernel that, for each of 1000 classes, averages the
  embeddings of the batch rows labelled with the class and blends the average with the class's old centroid,
  against the reference that forms the same sums and counts by scatter-add.

  The kernel walks a grid of two feature halves by sixteen batch tiles. At each tile it builds the one-hot
  matrix of the tile's labels against the class numbers, multiplies it with the tile's embeddings (split into a
  rounded part and its remainder, which over the reals are the embeddings and zero), and adds the product and the
  one-hot row sums to two accumulators it keeps across the tiles; after the sixteenth tile it divides, blends and
  writes the half's block. Over the extended reals the accumulators after the last tile are the class sums and
  class counts of the whole batch (the sixteen tiles are the batch; a label outside the class range matches no
  class and its row is dropped, as the reference's scatter drops it), so the result array is the blended class
  mean — the same function the reference's two scatter-adds, quotient and blend compute. That the embeddings
  are finite is used once: for the remainder term to vanish.

  frame_Kernel, frame_KernelIdeal: the generated frames. frame_ReferenceIdeal: the reference's generated run.
  preserves: the two format round trips the idealization removed are the identity on the extended reals.
  algebraic: both runs end at the specification `Cert.ClassMean.blend` of arguments that agree.
-/
import proofs.«412417_j59760174957097_3_alg».proof.Defs
import proofs.«412417_j59760174957097_3_alg».proof.Proof.Gen.Kernel
import proofs.«412417_j59760174957097_3_alg».proof.Proof.Gen.Kernel.Skeleton
import proofs.«412417_j59760174957097_3_alg».proof.Proof.Gen.Kernel.Launch
import proofs.«412417_j59760174957097_3_alg».proof.Proof.Gen.Kernel.Points
import proofs.«412417_j59760174957097_3_alg».proof.Proof.Gen.Kernel.Frame
import proofs.«412417_j59760174957097_3_alg».proof.Proof.Gen.KernelIdeal
import proofs.«412417_j59760174957097_3_alg».proof.Proof.Gen.KernelIdeal.Skeleton
import proofs.«412417_j59760174957097_3_alg».proof.Proof.Gen.KernelIdeal.Launch
import proofs.«412417_j59760174957097_3_alg».proof.Proof.Gen.KernelIdeal.Points
import proofs.«412417_j59760174957097_3_alg».proof.Proof.Gen.KernelIdeal.Frame
import proofs.«412417_j59760174957097_3_alg».proof.Proof.Gen.ReferenceIdeal
import proofs.«412417_j59760174957097_3_alg».proof.Proof.Gen.Pre_finite_inputs
import proofs.«412417_j59760174957097_3_alg».proof.Proof.Gen.KernelIdeal.Value
import proofs.«412417_j59760174957097_3_alg».proof.Proof.Gen.ReferenceIdeal.Run
import proofs.«412417_j59760174957097_3_alg».proof.Proof.Gen.ReferenceIdeal.Read
import proofs.«412417_j59760174957097_3_alg».proof.Proof.Result
import proofs.«412417_j59760174957097_3_alg».proof.Proof.RefBlend
import proofs.«412417_j59760174957097_3_alg».proof.Proof.Finite
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two places where the idealization dropped a narrowing to bf16 followed by a widening back: on the
    extended reals a change of format is the identity. -/
theorem preserves : Cert.preserves_Kernel_KernelIdeal :=
  ⟨IdealRules.truncf_extf.statement _ .f32 .bf16, IdealRules.truncf_extf.statement _ .f32 .bf16⟩

/-- Under the precondition every embedding is a real number. -/
theorem embed_real (m : (ℓ : Loc Cert.KernelIdeal.nD Cert.KernelIdeal.τ Cert.KernelIdeal.sig) → Buf (Elt Ideal) ℓ)
    (hpre : Cert.Pre_KernelIdeal m) : ∀ c i, ∃ r : ℝ, Cert.KernelIdeal.Acc.argX m c i = (r : EReal) :=
  fun c => Cert.FiniteInputs.embed_real _ _ _ (hpre c)

/-- Over the extended reals the idealized kernel's result array ends at the blended class means of its
    arguments, and so does the reference's, of arguments that agree. -/
theorem algebraic : Cert.algebraic_KernelIdeal_ReferenceIdeal := by
  intro m ρ m' ρ' hpre hagree
  refine ⟨fun c => Cert.KernelIdeal.Result.result m c, Cert.KernelIdeal.Result.run m ρ (embed_real m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq_blend,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
